-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4x2048x32x1 : Shape := ⟨4, ![4, 2048, 32, 1]⟩
abbrev S11008x4096 : Shape := ⟨2, ![11008, 4096]⟩
abbrev S11008x32x1 : Shape := ⟨3, ![11008, 32, 1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4x2048x32x1 : S_.BroadcastsInDim S4x2048x32x1 (![] : Fin 0 → Fin S4x2048x32x1.rank)
  reducesTo_S4x2048x32x1_S_d0_1_2_3 : S4x2048x32x1.ReducesTo [0, 1, 2, 3] S_
  bcast_S_S11008x32x1 : S_.BroadcastsInDim S11008x32x1 (![] : Fin 0 → Fin S11008x32x1.rank)
  reducesTo_S11008x32x1_S_d0_1_2 : S11008x32x1.ReducesTo [0, 1, 2] S_

variable [Facts]

def fn_part1 {F : FTy → Type} [FloatOps F] (main_arg5 : FVec F S11008x32x1 .f32) (main_v13 : IVec S_ 1) (main_v16 : IVec S11008x32x1 1) : IVec S_ 1 :=
  let main_c_5 : IVec S_ 1 := constantI S_ 1 1#1
  let main_v17 : IVec S_ 1 := (fun x v => Host.reduce IntOp.andi x v reducesTo_S11008x32x1_S_d0_1_2 h_S_) main_v16 main_c_5
  let main_v18 : IVec S_ 1 := andi main_v13 main_v17
  let main_v19 : FVec F S11008x32x1 .f32 := Host.absf main_arg5
  let main_cst_6 : FVec F S_ .f32 := constant S_ .f32 0x7F800000#32
  let main_v20 : FVec F S11008x32x1 .f32 := broadcastInDim S11008x32x1 ![] bcast_S_S11008x32x1 main_cst_6
  let main_v21 : IVec S11008x32x1 1 := cmpf .olt main_v19 main_v20
  let main_c_7 : IVec S_ 1 := constantI S_ 1 1#1
  let main_v22 : IVec S_ 1 := (fun x v => Host.reduce IntOp.andi x v reducesTo_S11008x32x1_S_d0_1_2 h_S_) main_v21 main_c_7
  let main_v23 : IVec S_ 1 := andi main_v18 main_v22
  main_v23

def fn {F : FTy → Type} [FloatOps F] (main_arg0 : FVec F S4x2048x4096 .f32) (main_arg1 : FVec F S4x2048x32x1 .f32) (main_arg2 : FVec F S4x2048x32x1 .f32) (main_arg3 : IVec S11008x4096 32) (main_arg4 : FVec F S11008x32x1 .f32) (main_arg5 : FVec F S11008x32x1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4x2048x32x1 .f32 := Host.absf main_arg1
  let main_cst_0 : FVec F S_ .f32 := constant S_ .f32 0x7F800000#32
  let main_v5 : FVec F S4x2048x32x1 .f32 := broadcastInDim S4x2048x32x1 ![] bcast_S_S4x2048x32x1 main_cst_0
  let main_v6 : IVec S4x2048x32x1 1 := cmpf .olt main_v4 main_v5
  let main_c_1 : IVec S_ 1 := constantI S_ 1 1#1
  let main_v7 : IVec S_ 1 := (fun x v => Host.reduce IntOp.andi x v reducesTo_S4x2048x32x1_S_d0_1_2_3 h_S_) main_v6 main_c_1
  let main_v8 : IVec S_ 1 := andi main_v3 main_v7
  let main_v9 : FVec F S4x2048x32x1 .f32 := Host.absf main_arg2
  let main_cst_2 : FVec F S_ .f32 := constant S_ .f32 0x7F800000#32
  let main_v10 : FVec F S4x2048x32x1 .f32 := broadcastInDim S4x2048x32x1 ![] bcast_S_S4x2048x32x1 main_cst_2
  let main_v11 : IVec S4x2048x32x1 1 := cmpf .olt main_v9 main_v10
  let main_c_3 : IVec S_ 1 := constantI S_ 1 1#1
  let main_v12 : IVec S_ 1 := (fun x v => Host.reduce IntOp.andi x v reducesTo_S4x2048x32x1_S_d0_1_2_3 h_S_) main_v11 main_c_3
  let main_v13 : IVec S_ 1 := andi main_v8 main_v12
  let main_v14 : FVec F S11008x32x1 .f32 := Host.absf main_arg4
  let main_cst_4 : FVec F S_ .f32 := constant S_ .f32 0x7F800000#32
  let main_v15 : FVec F S11008x32x1 .f32 := broadcastInDim S11008x32x1 ![] bcast_S_S11008x32x1 main_cst_4
  let main_v16 : IVec S11008x32x1 1 := cmpf .olt main_v14 main_v15
  fn_part1 (F := F) main_arg5 main_v13 main_v16
-- ==== Kernel.lean ====
abbrev S4x2048x4096 : Shape := ⟨3, ![4, 2048, 4096]⟩
abbrev S4x2048x32x1 : Shape := ⟨4, ![4, 2048, 32, 1]⟩
abbrev S11008x4096 : Shape := ⟨2, ![11008, 4096]⟩
abbrev S11008x32x1 : Shape := ⟨3, ![11008, 32, 1]⟩
abbrev S8192x4096 : Shape := ⟨2, ![8192, 4096]⟩
abbrev S8192x32x1 : Shape := ⟨3, ![8192, 32, 1]⟩
abbrev S8192x11008 : Shape := ⟨2, ![8192, 11008]⟩
abbrev S512x4096 : Shape := ⟨2, ![512, 4096]⟩
abbrev S512x32x1 : Shape := ⟨3, ![512, 32, 1]⟩
abbrev S128x4096 : Shape := ⟨2, ![128, 4096]⟩
abbrev S128x32x1 : Shape := ⟨3, ![128, 32, 1]⟩
abbrev S512x128 : Shape := ⟨2, ![512, 128]⟩
abbrev S512x32x128 : Shape := ⟨3, ![512, 32, 128]⟩
abbrev S128x32x128 : Shape := ⟨3, ![128, 32, 128]⟩
abbrev S4x2048x11008 : Shape := ⟨3, ![4, 2048, 11008]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4x2048x32x1, .f32⟩
  | .hbm, ⟨2, _⟩ => ⟨S4x2048x32x1, .f32⟩
  | .hbm, ⟨3, _⟩ => ⟨S11008x4096, .i32⟩
  | .hbm, ⟨4, _⟩ => ⟨S11008x32x1, .f32⟩
  | .hbm, ⟨5, _⟩ => ⟨S11008x32x1, .f32⟩
  | .hbm, ⟨6, _⟩ => ⟨S8192x4096, .f32⟩
  | .hbm, ⟨7, _⟩ => ⟨S8192x32x1, .f32⟩
  | .hbm, ⟨8, _⟩ => ⟨S8192x32x1, .f32⟩
  | .hbm, ⟨9, _⟩ => ⟨S8192x11008, .f32⟩
  | .hbm, ⟨10, _⟩ => ⟨S4x2048x11008, .f32⟩
  | .local _ .vmem, ⟨0, _⟩ => ⟨S512x4096, .f32⟩
  | .local _ .vmem, ⟨1, _⟩ => ⟨S512x4096, .f32⟩
  | .local _ .vmem, ⟨2, _⟩ => ⟨S512x32x1, .f32⟩
  | .local _ .vmem, ⟨3, _⟩ => ⟨S512x32x1, .f32⟩
  | .local _ .vmem, ⟨4, _⟩ => ⟨S512x32x1, .f32⟩
  | .local _ .vmem, ⟨5, _⟩ => ⟨S512x32x1, .f32⟩
  | .local _ .vmem, ⟨6, _⟩ => ⟨S128x4096, .i32⟩
  | .local _ .vmem, ⟨7, _⟩ => ⟨S128x4096, .i32⟩
  | .local _ .vmem, ⟨8, _⟩ => ⟨S128x32x1, .f32⟩
  | .local _ .vmem, ⟨9, _⟩ => ⟨S128x32x1, .f32⟩
  | .local _ .vmem, ⟨10, _⟩ => ⟨S128x32x1, .f32⟩
  | .local _ .vmem, ⟨11, _⟩ => ⟨S128x32x1, .f32⟩
  | .local _ .vmem, ⟨12, _⟩ => ⟨S512x128, .f32⟩
  | .local _ .vmem, ⟨13, _⟩ => ⟨S512x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x2048x4096_S8192x4096 : S4x2048x4096.ShapeCasts S8192x4096
  shapeCasts_S4x2048x32x1_S8192x32x1 : S4x2048x32x1.ShapeCasts S8192x32x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S512x4096_S512x32x128 : S512x4096.ShapeCasts S512x32x128
  inb_S512x32x1_S512x32x1_0_0_0 : ∀ a, (![0, 0, 0] : Fin 3 → Nat) a + S512x32x1.size a ≤ S512x32x1.size a
  h_S512x32x1 : 0 < S512x32x1.numel
  shapeCasts_S512x32x1_S512x32x1 : S512x32x1.ShapeCasts S512x32x1
  broadcasts_S512x32x1_S512x32x128 : S512x32x1.Broadcasts S512x32x128
  shapeCasts_S512x32x128_S512x4096 : S512x32x128.ShapeCasts S512x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S128x4096_S128x32x128 : S128x4096.ShapeCasts S128x32x128
  inb_S128x32x1_S128x32x1_0_0_0 : ∀ a, (![0, 0, 0] : Fin 3 → Nat) a + S128x32x1.size a ≤ S128x32x1.size a
  h_S128x32x1 : 0 < S128x32x1.numel
  broadcasts_S128x32x1_S128x32x128 : S128x32x1.Broadcasts S128x32x128
  shapeCasts_S128x32x128_S128x4096 : S128x32x128.ShapeCasts S128x4096
  inb_S512x128_S512x128_0_0 : ∀ a, (![0, 0] : Fin 2 → Nat) a + S512x128.size a ≤ S512x128.size a
  h_S512x128 : 0 < S512x128.numel
  shapeCasts_S8192x11008_S4x2048x11008 : S8192x11008.ShapeCasts S4x2048x11008
  dot_S512x4096_S128x4096_S512x128_1_1_0_0_n_n_wf : DotDims.WF S512x4096 S128x4096 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32x1.size a ≤ S8192x32x1.size a
  hwx0_1 : ∀ i : grid0.Coords, EltTy.bits .f32 = 32 ∨ (Rect.block (s := S8192x32x1) S512x32x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32x1.size a ≤ S8192x32x1.size a
  hwx0_2 : ∀ i : grid0.Coords, EltTy.bits .f32 = 32 ∨ (Rect.block (s := S8192x32x1) S512x32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S11008x4096.size a
  hwx0_3 : ∀ i : grid0.Coords, EltTy.bits .i32 = 32 ∨ (Rect.block (s := S11008x4096) S128x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x32x1.size a ≤ S11008x32x1.size a
  hwx0_4 : ∀ i : grid0.Coords, EltTy.bits .f32 = 32 ∨ (Rect.block (s := S11008x32x1) S128x32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x32x1.size a ≤ S11008x32x1.size a
  hwx0_5 : ∀ i : grid0.Coords, EltTy.bits .f32 = 32 ∨ (Rect.block (s := S11008x32x1) S128x32x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S8192x11008.size a
  hwx0_6 : ∀ i : grid0.Coords, EltTy.bits .f32 = 32 ∨ (Rect.block (s := S8192x11008) S512x128.size (cc0_transform_6 i) (hinb0_6 i)).WholeWords (EltTy.packing .f32)

variable [Facts₀]

def dot_S512x4096_S128x4096_S512x128_1_1_0_0_n_n : DotDims S512x4096 S128x4096 S512x128 where
  lhsContracting := [1]
  rhsContracting := [1]
  lhsNonContracting := [0]
  rhsNonContracting := [0]
  lhsBatch := []
  rhsBatch := []
  wf := dot_S512x4096_S128x4096_S512x128_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x32x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x32x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4x2048x32x1 : Shape := ⟨4, ![4, 2048, 32, 1]⟩
abbrev S11008x4096 : Shape := ⟨2, ![11008, 4096]⟩
abbrev S11008x32x1 : Shape := ⟨3, ![11008, 32, 1]⟩
abbrev S4x2048x32x128 : Shape := ⟨4, ![4, 2048, 32, 128]⟩
abbrev S11008x32x128 : Shape := ⟨3, ![11008, 32, 128]⟩
abbrev S4x2048x11008 : Shape := ⟨3, ![4, 2048, 11008]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x32x1, .f32⟩
  | .hbm, ⟨2, _⟩ => ⟨S4x2048x32x1, .f32⟩
  | .hbm, ⟨3, _⟩ => ⟨S11008x4096, .i32⟩
  | .hbm, ⟨4, _⟩ => ⟨S11008x32x1, .f32⟩
  | .hbm, ⟨5, _⟩ => ⟨S11008x32x1, .f32⟩
  | .hbm, ⟨6, _⟩ => ⟨S4x2048x32x128, .f32⟩
  | .hbm, ⟨7, _⟩ => ⟨S4x2048x32x128, .f32⟩
  | .hbm, ⟨8, _⟩ => ⟨S4x2048x32x128, .f32⟩
  | .hbm, ⟨9, _⟩ => ⟨S4x2048x32x128, .f32⟩
  | .hbm, ⟨10, _⟩ => ⟨S4x2048x32x128, .f32⟩
  | .hbm, ⟨11, _⟩ => ⟨S4x2048x4096, .f32⟩
  | .hbm, ⟨12, _⟩ => ⟨S11008x32x128, .i32⟩
  | .hbm, ⟨13, _⟩ => ⟨S11008x32x128, .f32⟩
  | .hbm, ⟨14, _⟩ => ⟨S11008x32x128, .f32⟩
  | .hbm, ⟨15, _⟩ => ⟨S11008x32x128, .f32⟩
  | .hbm, ⟨16, _⟩ => ⟨S11008x32x128, .f32⟩
  | .hbm, ⟨17, _⟩ => ⟨S11008x32x128, .f32⟩
  | .hbm, ⟨18, _⟩ => ⟨S11008x4096, .f32⟩
  | .hbm, ⟨19, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  shapeCasts_S4x2048x4096_S4x2048x32x128 : S4x2048x4096.ShapeCasts S4x2048x32x128
  bcast_S4x2048x32x1_S4x2048x32x128_0_1_2_3 : S4x2048x32x1.BroadcastsInDim S4x2048x32x128 (![0, 1, 2, 3] : Fin 4 → Fin S4x2048x32x128.rank)
  shapeCasts_S4x2048x32x128_S4x2048x4096 : S4x2048x32x128.ShapeCasts S4x2048x4096
  shapeCasts_S11008x4096_S11008x32x128 : S11008x4096.ShapeCasts S11008x32x128
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.GroupedLinear.lean ====
/-
  Group-wise affine dequantisation followed by a linear layer, as ONE function of the argument arrays.

  The activations `x : [4, 2048, 4096]` and the integer weights `w : [11008, 4096]` are cut along their last axis into
  32 groups of 128 consecutive columns; column `k` belongs to group `k / 128`. Each group of a row carries a zero point
  and a scale (`[.., 32, 1]` arrays), and an entry is dequantised as `(v - zero) * scale`. The layer's output at
  `(b, t, o)` is the sum over the 4096 columns `k` of the dequantised activation at `(b, t, k)` times the dequantised
  weight at `(o, k)`.

  The same function is also written over the FLAT layout `[8192, ..]` in which rows `(b, t)` are numbered
  `b * 2048 + t`, and the two are related through the row-major reshapes between the layouts
  (`shapeCast_linearFlat`).
-/
import Idealize.ShloMosaic.Lib.ValueIdx
import Idealize.ShloMosaic.Lib.Pipeline.Value

noncomputable section

open scoped BigOperators

namespace Cert.GroupedLinear

open Idealize.ShloMosaic Idealize.ShloMosaic.ValueIdx

/-! ## Shapes -/

abbrev SAct : Shape := ⟨3, ![4, 2048, 4096]⟩
abbrev SActQ : Shape := ⟨4, ![4, 2048, 32, 1]⟩
abbrev SWgt : Shape := ⟨2, ![11008, 4096]⟩
abbrev SWgtQ : Shape := ⟨3, ![11008, 32, 1]⟩
abbrev SOut : Shape := ⟨3, ![4, 2048, 11008]⟩
abbrev SActF : Shape := ⟨2, ![8192, 4096]⟩
abbrev SActQF : Shape := ⟨3, ![8192, 32, 1]⟩
abbrev SOutF : Shape := ⟨2, ![8192, 11008]⟩

/-! ## The function -/

/-- The group of column `k`: groups are runs of 128 consecutive columns. -/
def grp (k : Fin 4096) : Fin 32 := ⟨k.val / 128, by have := k.isLt; omega⟩

/-- The dequantised weight at row `o`, column `k`: the integer read signed, minus its group's zero point, times its
    group's scale. -/
def wgt (w : SWgt.Idx → BitVec 32) (ws wz : SWgtQ.Idx → EReal) (o : Fin 11008) (k : Fin 4096) : EReal :=
  (FloatOps.sitofp (F := Ideal) .f32 (w (ix2 o k)) - wz (ix3 o (grp k) (0 : Fin 1))) * ws (ix3 o (grp k) (0 : Fin 1))

/-- The dequantised activation at `(b, t)`, column `k`. -/
def act (x : SAct.Idx → EReal) (s z : SActQ.Idx → EReal) (b : Fin 4) (t : Fin 2048) (k : Fin 4096) : EReal :=
  (x (ix3 b t k) - z (ix4 b t (grp k) (0 : Fin 1))) * s (ix4 b t (grp k) (0 : Fin 1))

/-- The same over the flat layout: row `r` of `[8192, ..]`. -/
def actFlat (X : SActF.Idx → EReal) (S Z : SActQF.Idx → EReal) (r : Fin 8192) (k : Fin 4096) : EReal :=
  (X (ix2 r k) - Z (ix3 r (grp k) (0 : Fin 1))) * S (ix3 r (grp k) (0 : Fin 1))

/-- THE RESULT: at `(b, t, o)`, the sum over the columns of dequantised activation times dequantised weight. -/
def linear (x : SAct.Idx → EReal) (s z : SActQ.Idx → EReal) (w : SWgt.Idx → BitVec 32) (ws wz : SWgtQ.Idx → EReal) :
    SOut.Idx → EReal :=
  fun i => ∑ k : Fin 4096, act x s z (i 0) (i 1) k * wgt w ws wz (i 2) k

/-- The result over the flat layout: at `(r, o)`. -/
def linearFlat (X : SActF.Idx → EReal) (S Z : SActQF.Idx → EReal) (w : SWgt.Idx → BitVec 32) (ws wz : SWgtQ.Idx → EReal) :
    SOutF.Idx → EReal :=
  fun i => ∑ k : Fin 4096, actFlat X S Z (i 0) k * wgt w ws wz (i 1) k

/-! ## The two layouts -/

/-- Row `(b, t)` of the 3-axis layout is row `b * 2048 + t` of the flat one. -/
def flatRow (b : Fin 4) (t : Fin 2048) : Fin 8192 := ⟨b.val * 2048 + t.val, by have := b.isLt; have := t.isLt; omega⟩

/-- A flat activation row reads the row it numbers. -/
theorem actFlat_shapeCast (x : SAct.Idx → EReal) (s z : SActQ.Idx → EReal) (hx : SAct.ShapeCasts SActF)
    (hq : SActQ.ShapeCasts SActQF) (b : Fin 4) (t : Fin 2048) (k : Fin 4096) :
    actFlat (shapeCast SActF x hx) (shapeCast SActQF s hq) (shapeCast SActQF z hq) (flatRow b t) k = act x s z b t k := by
  have hb := b.isLt; have ht := t.isLt; have hk := k.isLt
  unfold actFlat act
  rw [shapeCast_apply x hx (ix2 (flatRow b t) k) (ix3 b t k)
        (by rewrite [Shape.rowMajor_val_three, Shape.rowMajor_val_two]
            show (b.val * 2048 + t.val) * 4096 + k.val = (b.val * 2048 + t.val) * 4096 + k.val; rfl),
      shapeCast_apply s hq (ix3 (flatRow b t) (grp k) (0 : Fin 1)) (ix4 b t (grp k) (0 : Fin 1))
        (by rewrite [Shape.rowMajor_val_four, Shape.rowMajor_val_three]
            show ((b.val * 2048 + t.val) * 32 + (grp k).val) * 1 + 0 = ((b.val * 2048 + t.val) * 32 + (grp k).val) * 1 + 0; rfl),
      shapeCast_apply z hq (ix3 (flatRow b t) (grp k) (0 : Fin 1)) (ix4 b t (grp k) (0 : Fin 1))
        (by rewrite [Shape.rowMajor_val_four, Shape.rowMajor_val_three]
            show ((b.val * 2048 + t.val) * 32 + (grp k).val) * 1 + 0 = ((b.val * 2048 + t.val) * 32 + (grp k).val) * 1 + 0; rfl)]

/-- The flat result over the reshaped activations, reshaped back, is the result. -/
theorem shapeCast_linearFlat (x : SAct.Idx → EReal) (s z : SActQ.Idx → EReal) (w : SWgt.Idx → BitVec 32)
    (ws wz : SWgtQ.Idx → EReal) (hx : SAct.ShapeCasts SActF) (hq : SActQ.ShapeCasts SActQF) (ho : SOutF.ShapeCasts SOut) :
    shapeCast SOut (linearFlat (shapeCast SActF x hx) (shapeCast SActQF s hq) (shapeCast SActQF z hq) w ws wz) ho
      = linear x s z w ws wz := by
  funext i
  obtain ⟨b, t, o, rfl⟩ : ∃ (b : Fin 4) (t : Fin 2048) (o : Fin 11008), i = ix3 b t o := ⟨i 0, i 1, i 2, eq_ix3 i⟩
  rw [shapeCast_apply _ ho (ix3 b t o) (ix2 (flatRow b t) o)
        (by rewrite [Shape.rowMajor_val_two, Shape.rowMajor_val_three]
            show (b.val * 2048 + t.val) * 11008 + o.val = (b.val * 2048 + t.val) * 11008 + o.val; rfl)]
  show ∑ k : Fin 4096, actFlat _ _ _ (flatRow b t) k * wgt w ws wz o k = ∑ k : Fin 4096, act x s z b t k * wgt w ws wz o k
  exact Finset.sum_congr rfl fun k _ => by rw [actFlat_shapeCast]

end Cert.GroupedLinear

end
-- ==== Proof.RefLinear.lean ====
/-
  The reference's result is `GroupedLinear.linear` of its arguments.

  The reference reshapes the activations to `[4, 2048, 32, 128]`, subtracts the broadcast zero points, multiplies by the
  broadcast scales and reshapes back; it does the same to the integer weights after converting them; and it contracts
  the last axes. Read at `(b, t, o)` and at a column `k`, the two reshapes of a row cancel (column `k` sits at
  `(k / 128, k % 128)` of the grouped layout, and `(k / 128) * 128 + k % 128 = k`), and a broadcast `[.., 32, 1]` array is read
  at the group `k / 128`: each factor of the contraction is `act`, respectively `wgt`, at column `k`.
-/
import proofs.«119771_j57123065037500_1_alg».proof.Proof.Gen.ReferenceIdeal.Read
import proofs.«119771_j57123065037500_1_alg».proof.Proof.GroupedLinear

noncomputable section

open scoped BigOperators

namespace Cert.ReferenceIdeal.RefLinear

open Cert.ReferenceIdeal Cert.ReferenceIdeal.Read Idealize.ShloMosaic Idealize.ShloMosaic.ValueIdx Cert.GroupedLinear

variable (b : Fin 4) (t : Fin 2048) (o : Fin 11008) (k : Fin 4096)

/-- Through both reshapes of the activations, column `k` of row `(b, t)` is read at `(b, t, k)`. -/
theorem act_idx : idx_main_v0 (idx_main_v5 (lidx_main_v13 (ix3 b t o) k)) = ix3 b t k := by
  have hb := b.isLt; have ht := t.isLt; have hk := k.isLt
  funext a; apply Fin.ext
  match a with
  | ⟨0, _⟩ => show (((((b.val * 2048 + t.val) * 4096 + k.val) / 8388608 * 2048 + ((b.val * 2048 + t.val) * 4096 + k.val) / 4096 % 2048) * 32 + ((b.val * 2048 + t.val) * 4096 + k.val) / 128 % 32) * 128 + ((b.val * 2048 + t.val) * 4096 + k.val) % 128) / 8388608 = b.val; omega
  | ⟨1, _⟩ => show (((((b.val * 2048 + t.val) * 4096 + k.val) / 8388608 * 2048 + ((b.val * 2048 + t.val) * 4096 + k.val) / 4096 % 2048) * 32 + ((b.val * 2048 + t.val) * 4096 + k.val) / 128 % 32) * 128 + ((b.val * 2048 + t.val) * 4096 + k.val) % 128) / 4096 % 2048 = t.val; omega
  | ⟨2, _⟩ => show (((((b.val * 2048 + t.val) * 4096 + k.val) / 8388608 * 2048 + ((b.val * 2048 + t.val) * 4096 + k.val) / 4096 % 2048) * 32 + ((b.val * 2048 + t.val) * 4096 + k.val) / 128 % 32) * 128 + ((b.val * 2048 + t.val) * 4096 + k.val) % 128) % 4096 = k.val; omega

/-- The activations' zero points are read at the column's group. -/
theorem act_zero_idx : idx_main_v1 (idx_main_v5 (lidx_main_v13 (ix3 b t o) k)) = ix4 b t (grp k) (0 : Fin 1) := by
  have hb := b.isLt; have ht := t.isLt; have hk := k.isLt
  funext a; apply Fin.ext
  match a with
  | ⟨0, _⟩ => show ((b.val * 2048 + t.val) * 4096 + k.val) / 8388608 = b.val; omega
  | ⟨1, _⟩ => show ((b.val * 2048 + t.val) * 4096 + k.val) / 4096 % 2048 = t.val; omega
  | ⟨2, _⟩ => show ((b.val * 2048 + t.val) * 4096 + k.val) / 128 % 32 = k.val / 128; omega
  | ⟨3, _⟩ => rfl

/-- So are their scales. -/
theorem act_scale_idx : idx_main_v3 (idx_main_v5 (lidx_main_v13 (ix3 b t o) k)) = ix4 b t (grp k) (0 : Fin 1) :=
  act_zero_idx b t o k

/-- Through both reshapes of the weights, column `k` of row `o` is read at `(o, k)`. -/
theorem wgt_idx : idx_main_v6 (idx_main_v12 (ridx_main_v13 (ix3 b t o) k)) = ix2 o k := by
  have ho := o.isLt; have hk := k.isLt
  funext a; apply Fin.ext
  match a with
  | ⟨0, _⟩ => show (((o.val * 4096 + k.val) / 4096 * 32 + (o.val * 4096 + k.val) / 128 % 32) * 128 + (o.val * 4096 + k.val) % 128) / 4096 = o.val; omega
  | ⟨1, _⟩ => show (((o.val * 4096 + k.val) / 4096 * 32 + (o.val * 4096 + k.val) / 128 % 32) * 128 + (o.val * 4096 + k.val) % 128) % 4096 = k.val; omega

/-- The weights' zero points are read at the column's group. -/
theorem wgt_zero_idx : idx_main_v8 (idx_main_v12 (ridx_main_v13 (ix3 b t o) k)) = ix3 o (grp k) (0 : Fin 1) := by
  have ho := o.isLt; have hk := k.isLt
  funext a; apply Fin.ext
  match a with
  | ⟨0, _⟩ => show (o.val * 4096 + k.val) / 4096 = o.val; omega
  | ⟨1, _⟩ => show (o.val * 4096 + k.val) / 128 % 32 = k.val / 128; omega
  | ⟨2, _⟩ => rfl

/-- So are their scales. -/
theorem wgt_scale_idx : idx_main_v10 (idx_main_v12 (ridx_main_v13 (ix3 b t o) k)) = ix3 o (grp k) (0 : Fin 1) :=
  wgt_zero_idx b t o k

/-- THE REFERENCE'S RESULT, as a function of its arguments (activations, their scales and zero points, integer
    weights, their scales and zero points), is `linear`. -/
theorem val_eq_linear (x0 : SAct.Idx → EReal) (x1 x2 : SActQ.Idx → EReal) (x3 : SWgt.Idx → BitVec 32) (x4 x5 : SWgtQ.Idx → EReal) :
    val_main_v13 (F := Ideal) x0 x1 x2 x3 x4 x5 = linear x0 x1 x2 x3 x4 x5 := by
  funext i
  obtain ⟨b, t, o, rfl⟩ : ∃ (b : Fin 4) (t : Fin 2048) (o : Fin 11008), i = ix3 b t o := ⟨i 0, i 1, i 2, eq_ix3 i⟩
  rw [val_main_v13_apply]
  show _ = ∑ k : Fin 4096, act x0 x1 x2 b t k * wgt x3 x4 x5 o k
  refine Finset.sum_congr rfl fun k _ => ?_
  rw [val_main_v5_apply, val_main_v4_apply, val_main_v2_apply, val_main_v0_apply, val_main_v1_apply, val_main_v3_apply,
    val_main_v12_apply, val_main_v11_apply, val_main_v9_apply, val_main_v7_apply, val_main_v6_apply, val_main_v8_apply,
    val_main_v10_apply, act_idx, act_zero_idx, act_scale_idx, wgt_idx, wgt_zero_idx, wgt_scale_idx]
  rfl

end Cert.ReferenceIdeal.RefLinear

end
-- ==== Proof.BlockProduct.lean ====
/-
  The kernel body's product, read at an index of its `[512, 128]` output block.

  The body takes a `[512, 4096]` block of activations, views it as `[512, 32, 128]` (column `k` at group `k / 128`, lane
  `k % 128`), subtracts the zero points and multiplies by the scales (each `[512, 32, 1]`, broadcast along the lanes), and
  views the result as `[512, 4096]` again; it does the same to a `[128, 4096]` block of integer weights after converting
  them; the changes of float format are the identity on extended reals. The matrix product, accumulated into zero,
  contracts the 4096 columns: its entry `(p, q)` is the sum over `k` of the dequantised activation `(p, k)` times the
  dequantised weight `(q, k)`.
-/
import proofs.«119771_j57123065037500_1_alg».proof.Proof.Gen.KernelIdeal.Skeleton
import proofs.«119771_j57123065037500_1_alg».proof.Proof.GroupedLinear
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx Cert.GroupedLinear

/-- The lane of column `k` inside its group. -/
def lane (k : Fin 4096) : Fin 128 := ⟨k.val % 128, Nat.mod_lt _ (by decide)⟩

/-- A column is its group times 128 plus its lane. -/
theorem grp_lane (k : Fin 4096) : (grp k).val * 128 + (lane k).val = k.val := by
  show k.val / 128 * 128 + k.val % 128 = k.val; omega

/-! ## The two operands at an index -/

/-- The dequantised activation block at `(p, k)`. -/
theorem lhs_apply (x0 : Vec Ideal S512x4096 .f32) (x1 x2 : Vec Ideal S512x32x1 .f32)
    (h1 : S512x4096.ShapeCasts S512x4096) (h2 : S512x4096.ShapeCasts S512x32x128) (h3 : S512x32x1.ShapeCasts S512x32x1)
    (h4 : S512x32x1.Broadcasts S512x32x128) (h5 : S512x32x128.ShapeCasts S512x4096) (h6 : FTy.bits .bf16 < FTy.bits .f32)
    (p : Fin 512) (k : Fin 4096) :
    (truncf .bf16 (shapeCast S512x4096 (mulf (subf (shapeCast S512x32x128 (shapeCast S512x4096 x0 h1) h2)
        (broadcastTo S512x32x128 (shapeCast S512x32x1 x2 h3) h4))
        (broadcastTo S512x32x128 (shapeCast S512x32x1 x1 h3) h4)) h5) h6 : FVec Ideal S512x4096 .bf16) (ix2 p k)
      = (x0 (ix2 p k) - x2 (ix3 p (grp k) (0 : Fin 1))) * x1 (ix3 p (grp k) (0 : Fin 1)) := by
  have hgl := grp_lane k
  rw [truncf_apply,
    shapeCast_apply _ h5 (ix2 p k) (ix3 p (grp k) (lane k))
      (by rewrite [Shape.rowMajor_val_three, Shape.rowMajor_val_two]
          show (p.val * 32 + (grp k).val) * 128 + (lane k).val = p.val * 4096 + k.val; omega),
    mulf_apply, subf_apply,
    shapeCast_apply _ h2 (ix3 p (grp k) (lane k)) (ix2 p k)
      (by rewrite [Shape.rowMajor_val_three, Shape.rowMajor_val_two]
          show p.val * 4096 + k.val = (p.val * 32 + (grp k).val) * 128 + (lane k).val; omega),
    shapeCast_self,
    broadcastTo_apply _ h4 (ix3 p (grp k) (lane k)) (ix3 p (grp k) (0 : Fin 1)) (fun a => match a with
      | ⟨0, _⟩ => by show p.val = if (512 : Nat) = 1 then 0 else p.val; rw [if_neg (by decide)]
      | ⟨1, _⟩ => by show (grp k).val = if (32 : Nat) = 1 then 0 else (grp k).val; rw [if_neg (by decide)]
      | ⟨2, _⟩ => by show 0 = if (1 : Nat) = 1 then 0 else (lane k).val; rw [if_pos rfl]),
    shapeCast_self,
    broadcastTo_apply _ h4 (ix3 p (grp k) (lane k)) (ix3 p (grp k) (0 : Fin 1)) (fun a => match a with
      | ⟨0, _⟩ => by show p.val = if (512 : Nat) = 1 then 0 else p.val; rw [if_neg (by decide)]
      | ⟨1, _⟩ => by show (grp k).val = if (32 : Nat) = 1 then 0 else (grp k).val; rw [if_neg (by decide)]
      | ⟨2, _⟩ => by show 0 = if (1 : Nat) = 1 then 0 else (lane k).val; rw [if_pos rfl]),
    shapeCast_self]

/-- The dequantised weight block at `(q, k)`. -/
theorem rhs_apply (x3 : Vec Ideal S128x4096 .i32) (x4 x5 : Vec Ideal S128x32x1 .f32)
    (h2 : S128x4096.ShapeCasts S128x32x128) (h4 : S128x32x1.Broadcasts S128x32x128)
    (h5 : S128x32x128.ShapeCasts S128x4096) (h6 : FTy.bits .bf16 < FTy.bits .f32) (q : Fin 128) (k : Fin 4096) :
    (truncf .bf16 (shapeCast S128x4096 (mulf (subf (shapeCast S128x32x128 (sitofp .f32 x3) h2)
        (broadcastTo S128x32x128 x5 h4)) (broadcastTo S128x32x128 x4 h4)) h5) h6 : FVec Ideal S128x4096 .bf16) (ix2 q k)
      = (FloatOps.sitofp (F := Ideal) .f32 (x3 (ix2 q k)) - x5 (ix3 q (grp k) (0 : Fin 1))) * x4 (ix3 q (grp k) (0 : Fin 1)) := by
  have hgl := grp_lane k
  rw [truncf_apply,
    shapeCast_apply _ h5 (ix2 q k) (ix3 q (grp k) (lane k))
      (by rewrite [Shape.rowMajor_val_three, Shape.rowMajor_val_two]
          show (q.val * 32 + (grp k).val) * 128 + (lane k).val = q.val * 4096 + k.val; omega),
    mulf_apply, subf_apply,
    shapeCast_apply _ h2 (ix3 q (grp k) (lane k)) (ix2 q k)
      (by rewrite [Shape.rowMajor_val_three, Shape.rowMajor_val_two]
          show q.val * 4096 + k.val = (q.val * 32 + (grp k).val) * 128 + (lane k).val; omega),
    sitofp_apply,
    broadcastTo_apply _ h4 (ix3 q (grp k) (lane k)) (ix3 q (grp k) (0 : Fin 1)) (fun a => match a with
      | ⟨0, _⟩ => by show q.val = if (128 : Nat) = 1 then 0 else q.val; rw [if_neg (by decide)]
      | ⟨1, _⟩ => by show (grp k).val = if (32 : Nat) = 1 then 0 else (grp k).val; rw [if_neg (by decide)]
      | ⟨2, _⟩ => by show 0 = if (1 : Nat) = 1 then 0 else (lane k).val; rw [if_pos rfl]),
    broadcastTo_apply _ h4 (ix3 q (grp k) (lane k)) (ix3 q (grp k) (0 : Fin 1)) (fun a => match a with
      | ⟨0, _⟩ => by show q.val = if (128 : Nat) = 1 then 0 else q.val; rw [if_neg (by decide)]
      | ⟨1, _⟩ => by show (grp k).val = if (32 : Nat) = 1 then 0 else (grp k).val; rw [if_neg (by decide)]
      | ⟨2, _⟩ => by show 0 = if (1 : Nat) = 1 then 0 else (lane k).val; rw [if_pos rfl])]

/-! ## The product's operand indices -/

theorem lhs_dot_0 (i : S512x128.Idx) (q : dot_S512x4096_S128x4096_S512x128_1_1_0_0_n_n.contr.Idx) :
    (dot_S512x4096_S128x4096_S512x128_1_1_0_0_n_n.lhsIdx i q 0).val = (i 0).val := by
  unfold DotDims.lhsIdx
  rw [dif_neg (show ¬(0 : Fin S512x4096.rank) ∈ dot_S512x4096_S128x4096_S512x128_1_1_0_0_n_n.lhsBatch by decide), dif_pos (show (0 : Fin S512x4096.rank) ∈ dot_S512x4096_S128x4096_S512x128_1_1_0_0_n_n.lhsNonContracting by decide)]
  rfl
theorem lhs_dot_1 (i : S512x128.Idx) (q : dot_S512x4096_S128x4096_S512x128_1_1_0_0_n_n.contr.Idx) :
    (dot_S512x4096_S128x4096_S512x128_1_1_0_0_n_n.lhsIdx i q 1).val = (q ⟨0, by decide⟩).val :=
  dot_S512x4096_S128x4096_S512x128_1_1_0_0_n_n.lhsIdx_val_of_single rfl i q
theorem rhs_dot_0 (i : S512x128.Idx) (q : dot_S512x4096_S128x4096_S512x128_1_1_0_0_n_n.contr.Idx) :
    (dot_S512x4096_S128x4096_S512x128_1_1_0_0_n_n.rhsIdx i q 0).val = (i 1).val := by
  unfold DotDims.rhsIdx
  rw [dif_neg (show ¬(0 : Fin S128x4096.rank) ∈ dot_S512x4096_S128x4096_S512x128_1_1_0_0_n_n.rhsBatch by decide), dif_pos (show (0 : Fin S128x4096.rank) ∈ dot_S512x4096_S128x4096_S512x128_1_1_0_0_n_n.rhsNonContracting by decide)]
  rfl
theorem rhs_dot_1 (i : S512x128.Idx) (q : dot_S512x4096_S128x4096_S512x128_1_1_0_0_n_n.contr.Idx) :
    (dot_S512x4096_S128x4096_S512x128_1_1_0_0_n_n.rhsIdx i q 1).val = (q ⟨0, by decide⟩).val :=
  dot_S512x4096_S128x4096_S512x128_1_1_0_0_n_n.rhsIdx_val_of_single rfl i q

/-! ## The payload at an index -/

/-- THE BODY'S PRODUCT at `(p, q)`: the sum over the columns of the block's dequantised activation at `(p, k)` times
    its dequantised weight at `(q, k)`. (The loads arrive in the order: activations, their scales, their zero points,
    integer weights, their scales, their zero points.) -/
theorem pay_apply (x0 : Vec Ideal S512x4096 .f32) (x1 x2 : Vec Ideal S512x32x1 .f32) (x3 : Vec Ideal S128x4096 .i32)
    (x4 x5 : Vec Ideal S128x32x1 .f32) (p : Fin 512) (q : Fin 128) :
    k0_pay1 x0 x1 x2 x3 x4 x5 (ix2 p q)
      = ∑ k : Fin 4096, ((x0 (ix2 p k) - x2 (ix3 p (grp k) (0 : Fin 1))) * x1 (ix3 p (grp k) (0 : Fin 1)))
          * ((FloatOps.sitofp (F := Ideal) .f32 (x3 (ix2 q k)) - x5 (ix3 q (grp k) (0 : Fin 1))) * x4 (ix3 q (grp k) (0 : Fin 1))) := by
  unfold k0_pay1
  simp only [matmul]
  rw [Ideal.matmul_constant_zero_apply, ← Equiv.sum_comp (contrEquiv1 dot_S512x4096_S128x4096_S512x128_1_1_0_0_n_n 4096 rfl rfl).symm]
  refine Finset.sum_congr rfl fun k _ => ?_
  have hk := contrEquiv1_symm_val dot_S512x4096_S128x4096_S512x128_1_1_0_0_n_n 4096 rfl rfl k
  have el : dot_S512x4096_S128x4096_S512x128_1_1_0_0_n_n.lhsIdx (ix2 p q) ((contrEquiv1 dot_S512x4096_S128x4096_S512x128_1_1_0_0_n_n 4096 rfl rfl).symm k) = ix2 p k := funext fun a => Fin.ext (by
    match a with
    | ⟨0, _⟩ => exact lhs_dot_0 _ _
    | ⟨1, _⟩ => exact (lhs_dot_1 _ _).trans hk)
  have er : dot_S512x4096_S128x4096_S512x128_1_1_0_0_n_n.rhsIdx (ix2 p q) ((contrEquiv1 dot_S512x4096_S128x4096_S512x128_1_1_0_0_n_n 4096 rfl rfl).symm k) = ix2 q k := funext fun a => Fin.ext (by
    match a with
    | ⟨0, _⟩ => exact rhs_dot_0 _ _
    | ⟨1, _⟩ => exact (rhs_dot_1 _ _).trans hk)
  rw [el, er, lhs_apply, rhs_apply]

/-! ## A block of the flat arrays -/

/-- If the six loaded blocks are the blocks of flat arrays at block-row `r0` (rows `r0 * 512 + p`) and block-column
    `c0` (weight rows `c0 * 128 + q`), the body's product at `(p, q)` is the flat result at
    `(r0 * 512 + p, c0 * 128 + q)`. -/
theorem block_apply (X : SActF.Idx → EReal) (S Z : SActQF.Idx → EReal) (W : SWgt.Idx → BitVec 32) (WS WZ : SWgtQ.Idx → EReal)
    (x0 : Vec Ideal S512x4096 .f32) (x1 x2 : Vec Ideal S512x32x1 .f32) (x3 : Vec Ideal S128x4096 .i32)
    (x4 x5 : Vec Ideal S128x32x1 .f32) (r0 c0 : Nat) (hr : r0 < 16) (hc : c0 < 86)
    (e0 : ∀ (p : Fin 512) (k : Fin 4096), x0 (ix2 p k) = X (ix2 (⟨r0 * 512 + p.val, by have := p.isLt; omega⟩ : Fin 8192) k))
    (e1 : ∀ (p : Fin 512) (g : Fin 32), x1 (ix3 p g (0 : Fin 1)) = S (ix3 (⟨r0 * 512 + p.val, by have := p.isLt; omega⟩ : Fin 8192) g (0 : Fin 1)))
    (e2 : ∀ (p : Fin 512) (g : Fin 32), x2 (ix3 p g (0 : Fin 1)) = Z (ix3 (⟨r0 * 512 + p.val, by have := p.isLt; omega⟩ : Fin 8192) g (0 : Fin 1)))
    (e3 : ∀ (q : Fin 128) (k : Fin 4096), x3 (ix2 q k) = W (ix2 (⟨c0 * 128 + q.val, by have := q.isLt; omega⟩ : Fin 11008) k))
    (e4 : ∀ (q : Fin 128) (g : Fin 32), x4 (ix3 q g (0 : Fin 1)) = WS (ix3 (⟨c0 * 128 + q.val, by have := q.isLt; omega⟩ : Fin 11008) g (0 : Fin 1)))
    (e5 : ∀ (q : Fin 128) (g : Fin 32), x5 (ix3 q g (0 : Fin 1)) = WZ (ix3 (⟨c0 * 128 + q.val, by have := q.isLt; omega⟩ : Fin 11008) g (0 : Fin 1)))
    (p : Fin 512) (q : Fin 128) :
    k0_pay1 x0 x1 x2 x3 x4 x5 (ix2 p q)
      = linearFlat X S Z W WS WZ (ix2 (⟨r0 * 512 + p.val, by have := p.isLt; omega⟩ : Fin 8192) (⟨c0 * 128 + q.val, by have := q.isLt; omega⟩ : Fin 11008)) := by
  rw [pay_apply]
  refine Finset.sum_congr rfl fun k _ => ?_
  rw [e0, e1, e2, e3, e4, e5]
  rfl

end Cert.KernelIdeal.BlockProduct

end
-- ==== Proof.OutputArray.lean ====
/-
  The kernel's output array after the region, as one function of the arrays the region finds.

  The grid is `16 × 86`; point `t` is `(t / 86, t % 86)`. At point `(i, j)` the region stages rows `i * 512 ..` of the
  flat activations and of their scales and zero points, rows `j * 128 ..` of the integer weights and of their scales
  and zero points, and writes back block `(i, j)` of the `[8192, 11008]` output. What it writes back is that block of
  `linearFlat` of the six arrays (`BlockProduct.block_apply`), and the `16 × 86` blocks of `512 × 128` tile the output:
  entry `(r, o)` lies in the block of point `(r / 512) * 86 + o / 128`. So the output array ends at `linearFlat`.
-/
import proofs.«119771_j57123065037500_1_alg».proof.Proof.Gen.KernelIdeal.Frame
import proofs.«119771_j57123065037500_1_alg».proof.Proof.BlockProduct
import Idealize.ShloMosaic.Lib.Pipeline.Value

set_option maxRecDepth 16384

noncomputable section

open scoped BigOperators

namespace Cert.KernelIdeal.OutputArray

open Cert.KernelIdeal Cert.KernelIdeal.Gen Idealize.ShloMosaic Idealize.ShloMosaic.TcCoe Idealize.ShloMosaic.ValueIdx
open Idealize.SL.Sem Cert.GroupedLinear Cert.KernelIdeal.BlockProduct

variable (m : (ℓ : Loc nD τ sig) → Buf (Elt Ideal) ℓ)

/-- The flat result of the six arrays as the region finds them on core `c`. -/
abbrev regionResult (c : Dev nD) : S8192x11008.Idx → EReal :=
  linearFlat (V m c main_v0) (V m c main_v1) (V m c main_v2) (V m c main_arg3) (V m c main_arg4) (V m c main_arg5)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the output's block is `(t / 86, t % 86)`; the activations and their
    scales and zero points follow its row, the weights and theirs its column; every other block index is zero. -/
theorem idx_facts : ∀ t : Fin cfg0.N,
    win0_6.index t (0 : Fin 2) = t.val / 86 ∧ win0_6.index t (1 : Fin 2) = t.val % 86
    ∧ win0_0.index t (0 : Fin 2) = t.val / 86 ∧ win0_0.index t (1 : Fin 2) = 0
    ∧ win0_1.index t (0 : Fin 3) = t.val / 86 ∧ win0_1.index t (1 : Fin 3) = 0 ∧ win0_1.index t (2 : Fin 3) = 0
    ∧ win0_2.index t (0 : Fin 3) = t.val / 86 ∧ win0_2.index t (1 : Fin 3) = 0 ∧ win0_2.index t (2 : Fin 3) = 0
    ∧ win0_3.index t (0 : Fin 2) = t.val % 86 ∧ win0_3.index t (1 : Fin 2) = 0
    ∧ win0_4.index t (0 : Fin 3) = t.val % 86 ∧ win0_4.index t (1 : Fin 3) = 0 ∧ win0_4.index t (2 : Fin 3) = 0
    ∧ win0_5.index t (0 : Fin 3) = t.val % 86 ∧ win0_5.index t (1 : Fin 3) = 0 ∧ win0_5.index t (2 : Fin 3) = 0 :=
  (by decide +kernel : ∀ t : Fin grid0.N, _)

/-- WHAT POINT `t` WRITES BACK is block `t` of the flat result. -/
theorem flushed_eq (c : Dev nD) (t : Fin cfg0.N) :
    (dats m 0 c).flushed 6 t = ((cfg0.win 6).blk t).view.read (Elt Ideal) (regionResult m c) := by
  show (cfg0.win 6).cut (grid0.coords t) ((dats m 0 c).after 6 t) = _
  rw [after0_6]
  unfold out0_6
  rw [View.canon_unit_zero hz2]
  simp only [View.ld_unit_zero (S := S512x4096) hz2, View.ld_unit_zero (S := S512x32x1) hz3,
    View.ld_unit_zero (S := S128x4096) hz2, View.ld_unit_zero (S := S128x32x1) hz3]
  have ht : t.val < 1376 := lt_of_lt_of_eq t.isLt N_0
  obtain ⟨f60, f61, f00, f01, f10, f11, f12, f20, f21, f22, f30, f31, f40, f41, f42, f50, f51, f52⟩ := idx_facts t
  funext j
  obtain ⟨p, q, rfl⟩ : ∃ (p : Fin 512) (q : Fin 128), j = ix2 p q := ⟨j 0, j 1, eq_ix2 j⟩
  have hp := p.isLt; have hq := q.isLt
  have hemb : ((cfg0.win 6).blk t).view.emb (ix2 p q)
      = ix2 (⟨t.val / 86 * 512 + p.val, by omega⟩ : Fin 8192) (⟨t.val % 86 * 128 + q.val, by omega⟩ : Fin 11008) := by
    funext a; apply Fin.ext
    match a with
    | ⟨0, _⟩ => show win0_6.index t (0 : Fin 2) * 512 + 1 * p.val = t.val / 86 * 512 + p.val; omega
    | ⟨1, _⟩ => show win0_6.index t (1 : Fin 2) * 128 + 1 * q.val = t.val % 86 * 128 + q.val; omega
  show k0_pay1 (iblk m c 0 t) (iblk m c 1 t) (iblk m c 2 t) (iblk m c 3 t) (iblk m c 4 t) (iblk m c 5 t) (ix2 p q)
    = regionResult m c (((cfg0.win 6).blk t).view.emb (ix2 p q))
  rw [hemb]
  refine block_apply (V m c main_v0) (V m c main_v1) (V m c main_v2) (V m c main_arg3) (V m c main_arg4) (V m c main_arg5)
    (iblk m c 0 t) (iblk m c 1 t) (iblk m c 2 t) (iblk m c 3 t) (iblk m c 4 t) (iblk m c 5 t) (t.val / 86) (t.val % 86)
    (by omega) (by omega) ?_ ?_ ?_ ?_ ?_ ?_ p q
  · intro p k
    show V m c main_v0 (((cfg0.win 0).blk t).view.emb (ix2 p k)) = V m c main_v0 _
    refine congrArg _ (funext fun a => Fin.ext ?_)
    match a with
    | ⟨0, _⟩ => show win0_0.index t (0 : Fin 2) * 512 + 1 * p.val = t.val / 86 * 512 + p.val; omega
    | ⟨1, _⟩ => show win0_0.index t (1 : Fin 2) * 4096 + 1 * k.val = k.val; omega
  · intro p g
    show V m c main_v1 (((cfg0.win 1).blk t).view.emb (ix3 p g (0 : Fin 1))) = V m c main_v1 _
    refine congrArg _ (funext fun a => Fin.ext ?_)
    match a with
    | ⟨0, _⟩ => show win0_1.index t (0 : Fin 3) * 512 + 1 * p.val = t.val / 86 * 512 + p.val; omega
    | ⟨1, _⟩ => show win0_1.index t (1 : Fin 3) * 32 + 1 * g.val = g.val; omega
    | ⟨2, _⟩ => show win0_1.index t (2 : Fin 3) * 1 + 1 * 0 = 0; omega
  · intro p g
    show V m c main_v2 (((cfg0.win 2).blk t).view.emb (ix3 p g (0 : Fin 1))) = V m c main_v2 _
    refine congrArg _ (funext fun a => Fin.ext ?_)
    match a with
    | ⟨0, _⟩ => show win0_2.index t (0 : Fin 3) * 512 + 1 * p.val = t.val / 86 * 512 + p.val; omega
    | ⟨1, _⟩ => show win0_2.index t (1 : Fin 3) * 32 + 1 * g.val = g.val; omega
    | ⟨2, _⟩ => show win0_2.index t (2 : Fin 3) * 1 + 1 * 0 = 0; omega
  · intro q k
    show V m c main_arg3 (((cfg0.win 3).blk t).view.emb (ix2 q k)) = V m c main_arg3 _
    refine congrArg _ (funext fun a => Fin.ext ?_)
    match a with
    | ⟨0, _⟩ => show win0_3.index t (0 : Fin 2) * 128 + 1 * q.val = t.val % 86 * 128 + q.val; omega
    | ⟨1, _⟩ => show win0_3.index t (1 : Fin 2) * 4096 + 1 * k.val = k.val; omega
  · intro q g
    show V m c main_arg4 (((cfg0.win 4).blk t).view.emb (ix3 q g (0 : Fin 1))) = V m c main_arg4 _
    refine congrArg _ (funext fun a => Fin.ext ?_)
    match a with
    | ⟨0, _⟩ => show win0_4.index t (0 : Fin 3) * 128 + 1 * q.val = t.val % 86 * 128 + q.val; omega
    | ⟨1, _⟩ => show win0_4.index t (1 : Fin 3) * 32 + 1 * g.val = g.val; omega
    | ⟨2, _⟩ => show win0_4.index t (2 : Fin 3) * 1 + 1 * 0 = 0; omega
  · intro q g
    show V m c main_arg5 (((cfg0.win 5).blk t).view.emb (ix3 q g (0 : Fin 1))) = V m c main_arg5 _
    refine congrArg _ (funext fun a => Fin.ext ?_)
    match a with
    | ⟨0, _⟩ => show win0_5.index t (0 : Fin 3) * 128 + 1 * q.val = t.val % 86 * 128 + q.val; omega
    | ⟨1, _⟩ => show win0_5.index t (1 : Fin 3) * 32 + 1 * g.val = g.val; omega
    | ⟨2, _⟩ => show win0_5.index t (2 : Fin 3) * 1 + 1 * 0 = 0; omega

/-- An index of the output is in point `t`'s block iff each coordinate is in the block's range on its axis. -/
theorem mem_blk (t : Fin cfg0.N) (i : S8192x11008.Idx) :
    i ∈ ((cfg0.win 6).blk t).view.set ↔ ∀ a : Fin 2, win0_6.index t a * S512x128.size a ≤ (i a).val
      ∧ (i a).val < win0_6.index t a * S512x128.size a + S512x128.size a := by
  show i ∈ ((View.whole main_v3).slice (win0_6.rect t)).set ↔ _
  rw [View.set_slice_whole, Rect.mem_set_unit]
  exact Iff.rfl

/-- The blocks tile the output: entry `(r, o)` lies in the block of point `(r / 512) * 86 + o / 128`. -/
theorem cover (i : S8192x11008.Idx) :
    ∃ t : Fin cfg0.N, (cfg0.win 6).flush t = true ∧ i ∈ ((cfg0.win 6).blk t).view.set := by
  have hi0 : (i 0).val < 8192 := (i 0).isLt
  have hi1 : (i 1).val < 11008 := (i 1).isLt
  have hN : (i 0).val / 512 * 86 + (i 1).val / 128 < cfg0.N := lt_of_lt_of_eq (by omega) N_0.symm
  refine ⟨⟨(i 0).val / 512 * 86 + (i 1).val / 128, hN⟩, flush0_6 _, ?_⟩
  obtain ⟨f60, f61, -⟩ := idx_facts ⟨(i 0).val / 512 * 86 + (i 1).val / 128, hN⟩
  rw [mem_blk]
  intro a
  match a with
  | ⟨0, _⟩ =>
    show win0_6.index ⟨(i 0).val / 512 * 86 + (i 1).val / 128, hN⟩ (0 : Fin 2) * 512 ≤ (i 0).val
      ∧ (i 0).val < win0_6.index ⟨(i 0).val / 512 * 86 + (i 1).val / 128, hN⟩ (0 : Fin 2) * 512 + 512
    rw [f60]; show ((i 0).val / 512 * 86 + (i 1).val / 128) / 86 * 512 ≤ (i 0).val ∧ (i 0).val < ((i 0).val / 512 * 86 + (i 1).val / 128) / 86 * 512 + 512
    omega
  | ⟨1, _⟩ =>
    show win0_6.index ⟨(i 0).val / 512 * 86 + (i 1).val / 128, hN⟩ (1 : Fin 2) * 128 ≤ (i 1).val
      ∧ (i 1).val < win0_6.index ⟨(i 0).val / 512 * 86 + (i 1).val / 128, hN⟩ (1 : Fin 2) * 128 + 128
    rw [f61]; show ((i 0).val / 512 * 86 + (i 1).val / 128) % 86 * 128 ≤ (i 1).val ∧ (i 1).val < ((i 0).val / 512 * 86 + (i 1).val / 128) % 86 * 128 + 128
    omega

/-- THE OUTPUT ARRAY after the region is the flat result of the arrays the region found. -/
theorem final (c : Dev nD) : (dats m 0 c).arrAt 6 cfg0.N = regionResult m c :=
  (dats m 0 c).arrAt_eq_of_cover 6 (regionResult m c) (fun t _ => flushed_eq m c t) cover

end Cert.KernelIdeal.OutputArray

end
-- ==== Proof.HostReshapes.lean ====
/-
  @main's host operations around the region.

  Before the region three reshapes write the flat `[8192, ..]` views of the activations and of their scales and zero
  points; the region finds the other three arguments as launched. After the region one reshape writes the result
  `[4, 2048, 11008]` from the region's `[8192, 11008]` output array.
-/
import proofs.«119771_j57123065037500_1_alg».proof.Proof.Gen.KernelIdeal.Frame
import Idealize.ShloMosaic.Lib.StableHlo.Run

noncomputable section

namespace Cert.KernelIdeal.HostReshapes

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The region finds the activations reshaped flat. -/
theorem V_main_v0 (c : Dev nD) :
    V m c main_v0 = shapeCast S8192x4096 (m ((c : Thread nD τ).loc main_arg0)) shapeCasts_S4x2048x4096_S8192x4096 := by
  show StableHlo.after hostOps0 (fun b => m (c, b)) (Proc.devRef .tc main_v0) = _
  after_results; rfl

/-- The region finds the activations' scales reshaped flat. -/
theorem V_main_v1 (c : Dev nD) :
    V m c main_v1 = shapeCast S8192x32x1 (m ((c : Thread nD τ).loc main_arg1)) shapeCasts_S4x2048x32x1_S8192x32x1 := by
  show StableHlo.after hostOps0 (fun b => m (c, b)) (Proc.devRef .tc main_v1) = _
  after_results; rfl

/-- The region finds the activations' zero points reshaped flat. -/
theorem V_main_v2 (c : Dev nD) :
    V m c main_v2 = shapeCast S8192x32x1 (m ((c : Thread nD τ).loc main_arg2)) shapeCasts_S4x2048x32x1_S8192x32x1 := by
  show StableHlo.after hostOps0 (fun b => m (c, b)) (Proc.devRef .tc main_v2) = _
  after_results; rfl

/-- The result buffer after the last reshape: the region's output array reshaped. -/
theorem tail_main_v4 (dats : (p : Fin 1) → (c : Dev nD) → Pipeline.Dat τ (Elt F) Unit ℕ (UR sig nD τ) ℕ (cfgs p) c) (c : Dev nD) :
    Pipeline.afterTail₀ cfgs dats 0 (V0 m) [hostOps1] c main_v4
      = shapeCast S4x2048x11008 ((dats 0 c).arrAt 6 cfg0.N) shapeCasts_S8192x11008_S4x2048x11008 := by
  unfold Pipeline.afterTail₀
  show StableHlo.after hostOps1 _ (Proc.devRef .tc main_v4) = _
  after_results
  exact congrArg (fun v => shapeCast S4x2048x11008 v shapeCasts_S8192x11008_S4x2048x11008)
    (Pipeline.withArrays_arr spec0 launch0.win.arr_inj c _ _ 6)

end Cert.KernelIdeal.HostReshapes

end
-- ==== Proof.KernelRun.lean ====
/-
  The idealized kernel's run: every weakly fair execution terminates with the result buffer at `linear` of the
  arguments and the arguments unchanged.

  The region's output array ends at `linearFlat` of the arrays the region finds (`OutputArray.final`); three of those
  are the flat reshapes of the activations and of their scales and zero points, the other three the weights and
  theirs as launched; the result is the reshape of the output array; and the flat result over reshaped activations,
  reshaped back, is `linear` (`GroupedLinear.shapeCast_linearFlat`).
-/
import proofs.«119771_j57123065037500_1_alg».proof.Proof.OutputArray
import proofs.«119771_j57123065037500_1_alg».proof.Proof.HostReshapes

noncomputable section

namespace Cert.KernelIdeal.KernelRun

open Cert.KernelIdeal Cert.KernelIdeal.Gen Idealize.ShloMosaic Idealize.ShloMosaic.TcCoe Idealize.SL.Sem
open Cert.GroupedLinear Cert.KernelIdeal.OutputArray Cert.KernelIdeal.HostReshapes

variable (m : (ℓ : Loc nD τ sig) → Buf (Elt Ideal) ℓ) (ρ : Dev nD → PrngReg)

/-- The result buffer after @main, as a function of the arguments as launched. -/
theorem result_eq (c : Dev nD) :
    Pipeline.afterTail₀ cfgs (dats m) 0 (V0 m) [hostOps1] c main_v4
      = linear (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [tail_main_v4, OutputArray.final]
  show shapeCast S4x2048x11008 (linearFlat (V m c main_v0) (V m c main_v1) (V m c main_v2) (V m c main_arg3) (V m c main_arg4)
    (V m c main_arg5)) shapeCasts_S8192x11008_S4x2048x11008 = _
  rw [V_main_v0, V_main_v1, V_main_v2, V_main_arg3, V_main_arg4, V_main_arg5]
  exact shapeCast_linearFlat _ _ _ _ _ _ _ _ _

/-- THE RUN: the result at `linear` of the arguments, the arguments unchanged. -/
theorem run : θ_run defs (onTc (τ := τ) (main (F := Ideal))) ⟨m, fun _ => 0, ρ⟩ fun r => ∀ c : Dev nD,
      r.2.mem ((c.tc : Thread nD τ).loc main_v4)
        = linear (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.KernelRun

end
-- ==== Proof.lean ====
/-
  A linear layer over group-wise dequantised operands, computed by a tiled kernel and by plain array code, is one
  function of the arguments on the extended reals.

  Both programs dequantise the activations `x : [4, 2048, 4096]` and the integer weights `w : [11008, 4096]` group by
  group (32 groups of 128 columns, `(v - zero) * scale` with a zero point and a scale per row and group) and contract the
  4096 columns: the result at `(b, t, o)` is `GroupedLinear.linear`, the sum over the columns `k` of the dequantised
  activation at `(b, t, k)` times the dequantised weight at `(o, k)`.

  The kernel works on the activations flattened to `[8192, 4096]`, on a `16 × 86` grid of `512 × 128` output blocks, each
  a matrix product (accumulated into zero) of the dequantised blocks, and reshapes the output back
  (`KernelRun.run`); the reference does it in one contraction (`RefLinear.val_eq_linear` over its run). The two sums
  have the same terms in the same index set, so no law of the extended reals beyond reading each side at an index is
  needed, and the precondition is not used. Changes of float format are the identity at this instance, and the
  kernel's idealization rewrote nothing, so `preserves` is `True`.
-/
import proofs.«119771_j57123065037500_1_alg».proof.Defs
import proofs.«119771_j57123065037500_1_alg».proof.Proof.Gen.Kernel
import proofs.«119771_j57123065037500_1_alg».proof.Proof.Gen.Kernel.Skeleton
import proofs.«119771_j57123065037500_1_alg».proof.Proof.Gen.Kernel.Launch
import proofs.«119771_j57123065037500_1_alg».proof.Proof.Gen.Kernel.Points
import proofs.«119771_j57123065037500_1_alg».proof.Proof.Gen.Kernel.Frame
import proofs.«119771_j57123065037500_1_alg».proof.Proof.Gen.KernelIdeal
import proofs.«119771_j57123065037500_1_alg».proof.Proof.Gen.KernelIdeal.Skeleton
import proofs.«119771_j57123065037500_1_alg».proof.Proof.Gen.KernelIdeal.Launch
import proofs.«119771_j57123065037500_1_alg».proof.Proof.Gen.KernelIdeal.Points
import proofs.«119771_j57123065037500_1_alg».proof.Proof.Gen.KernelIdeal.Frame
import proofs.«119771_j57123065037500_1_alg».proof.Proof.Gen.ReferenceIdeal
import proofs.«119771_j57123065037500_1_alg».proof.Proof.Gen.Pre_finite_inputs
import proofs.«119771_j57123065037500_1_alg».proof.Proof.Gen.ReferenceIdeal.Run
import proofs.«119771_j57123065037500_1_alg».proof.Proof.Gen.ReferenceIdeal.Read
import proofs.«119771_j57123065037500_1_alg».proof.Proof.RefLinear
import proofs.«119771_j57123065037500_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result at `linear` of the arguments. -/
theorem algebraic : Cert.algebraic_KernelIdeal_ReferenceIdeal := by
  intro m ρ m' ρ' _ hagree
  refine ⟨fun c => Cert.GroupedLinear.linear (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefLinear.val_eq_linear, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
